-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x512 : Shape := ⟨2, ![65536, 512]⟩
abbrev S512x768 : Shape := ⟨2, ![512, 768]⟩
abbrev S512 : Shape := ⟨1, ![512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x768 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S65536x256 .f32) (main_arg1 : FVec F S65536x512 .f32) (main_arg2 : FVec F S512x768 .f32) (main_arg3 : FVec F S512 .f32) (main_arg4 : FVec F S512x768 .f32) (main_arg5 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S65536x256 : Shape := ⟨2, ![65536, 256]⟩
abbrev S65536x512 : Shape := ⟨2, ![65536, 512]⟩
abbrev S512x768 : Shape := ⟨2, ![512, 768]⟩
abbrev S512 : Shape := ⟨1, ![512]⟩
abbrev S768x512 : Shape := ⟨2, ![768, 512]⟩
abbrev S512x512 : Shape := ⟨2, ![512, 512]⟩
abbrev S256x512 : Shape := ⟨2, ![256, 512]⟩
abbrev S1x512 : Shape := ⟨2, ![1, 512]⟩
abbrev S1024x256 : Shape := ⟨2, ![1024, 256]⟩
abbrev S1024x512 : Shape := ⟨2, ![1024, 512]⟩

abbrev nBuf : Space → Nat
  | .hbm => 17
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x768, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S768x512, .f32⟩
  | .hbm, ⟨7, _⟩ => ⟨S768x512, .bf16⟩
  | .hbm, ⟨8, _⟩ => ⟨S768x512, .f32⟩
  | .hbm, ⟨9, _⟩ => ⟨S768x512, .bf16⟩
  | .hbm, ⟨10, _⟩ => ⟨S512x512, .bf16⟩
  | .hbm, ⟨11, _⟩ => ⟨S256x512, .bf16⟩
  | .hbm, ⟨12, _⟩ => ⟨S512x512, .bf16⟩
  | .hbm, ⟨13, _⟩ => ⟨S256x512, .bf16⟩
  | .hbm, ⟨14, _⟩ => ⟨S1x512, .f32⟩
  | .hbm, ⟨15, _⟩ => ⟨S1x512, .f32⟩
  | .hbm, ⟨16, _⟩ => ⟨S65536x512, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S256x512, .bf16⟩
  | .local _ .vmem, ⟨6, _⟩ => ⟨S1x512, .f32⟩
  | .local _ .vmem, ⟨7, _⟩ => ⟨S512x512, .bf16⟩
  | .local _ .vmem, ⟨8, _⟩ => ⟨S256x512, .bf16⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S512x768_S768x512_1_0 : S512x768.Transposes [1, 0] S768x512
  bitsLt_bf16_f32 : FTy.bits .bf16 < FTy.bits .f32
  slices_S768x512_S512x512_0_0 : S768x512.Slices ![0, 0] S512x512
  slices_S768x512_S256x512_512_0 : S768x512.Slices ![512, 0] S256x512
  shapeCasts_S512_S1x512 : S512.ShapeCasts S1x512
  inb_S1024x256_S1024x256_0_0 : ∀ a, (![0, 0] : Fin 2 → Nat) a + S1024x256.size a ≤ S1024x256.size a
  h_S1024x256 : 0 < S1024x256.numel
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S65536x512.size a
  hwx0_8 : ∀ i : grid0.Coords, EltTy.bits .f32 = 32 ∨ (Rect.block (s := S65536x512) S1024x512.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x512 : Shape := ⟨2, ![65536, 512]⟩
abbrev S512x768 : Shape := ⟨2, ![512, 768]⟩
abbrev S512 : Shape := ⟨1, ![512]⟩
abbrev S65536x768 : Shape := ⟨2, ![65536, 768]⟩
abbrev S1x512 : Shape := ⟨2, ![1, 512]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x768, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S65536x768, .f32⟩
  | .hbm, ⟨7, _⟩ => ⟨S65536x512, .f32⟩
  | .hbm, ⟨8, _⟩ => ⟨S1x512, .f32⟩
  | .hbm, ⟨9, _⟩ => ⟨S65536x512, .f32⟩
  | .hbm, ⟨10, _⟩ => ⟨S65536x512, .f32⟩
  | .hbm, ⟨11, _⟩ => ⟨S_, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x768, .f32⟩
  | .hbm, ⟨19, _⟩ => ⟨S65536x512, .f32⟩
  | .hbm, ⟨20, _⟩ => ⟨S1x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  concatenates_S65536x512_S65536x256_S65536x768_d1 : Shape.Concatenates [S65536x512, S65536x256] S65536x768 1
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  dot_S65536x768_S512x768_S65536x512_1_1_0_0_n_n_wf : DotDims.WF S65536x768 S512x768 S65536x512 [1] [1] [0] [0] [] []

variable [Facts₀]

def dot_S65536x768_S512x768_S65536x512_1_1_0_0_n_n : DotDims S65536x768 S512x768 S65536x512 where
  lhsContracting := [1]
  rhsContracting := [1]
  lhsNonContracting := [0]
  rhsNonContracting := [0]
  lhsBatch := []
  rhsBatch := []
  wf := dot_S65536x768_S512x768_S65536x512_1_1_0_0_n_n_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Spec.lean ====
/-
  The cell this kernel and its reference both compute, row by row, on the extended reals.

  A row has a hidden part h (512 entries) and an input part x (256 entries). An affine gate with weights split as A
  (the hidden columns), B (the input columns) and bias b reads, at output column q,
      (sum over k of h k * A k q  +  sum over k of x k * B k q)  +  b q.
  The forget gate is fg q = (gate(h, x) q + 1) * (1/2); the gated state is fh q = fg q * h q; the new gate is
  ng q = gate'(fh, x) q; the result is (ng q - fg q * ng q) + fh q.

  A reference that contracts ONE joined row (hidden part then input part, 768 entries) against a 768-column weight row
  computes the same gate: a sum over 768 indices is the sum over the first 512 plus the sum over the last 256, which
  needs only that addition on the extended reals is commutative and associative (no finiteness).
-/
import Idealize.ShloMosaic.PureOps.Ideal
import Idealize.ShloMosaic.Lib.ValueIdx

noncomputable section

namespace Cert.Mgu

open Idealize.ShloMosaic Idealize.ShloMosaic.ValueIdx

/-- An affine gate of a row split as hidden part `h` and input part `x`, at output column `q`. -/
def affine (h : Fin 512 → EReal) (x : Fin 256 → EReal) (A : Fin 512 → Fin 512 → EReal) (B : Fin 256 → Fin 512 → EReal)
    (b : Fin 512 → EReal) (q : Fin 512) : EReal :=
  (∑ k : Fin 512, h k * A k q + ∑ k : Fin 256, x k * B k q) + b q

/-- The forget gate: the affine gate shifted by `one` and scaled by `half`. -/
def forget (one half : EReal) (h : Fin 512 → EReal) (x : Fin 256 → EReal) (A : Fin 512 → Fin 512 → EReal)
    (B : Fin 256 → Fin 512 → EReal) (b : Fin 512 → EReal) (q : Fin 512) : EReal :=
  (affine h x A B b q + one) * half

/-- The whole cell on one row, at output column `q`. -/
def cell (one half : EReal) (h : Fin 512 → EReal) (x : Fin 256 → EReal)
    (A : Fin 512 → Fin 512 → EReal) (B : Fin 256 → Fin 512 → EReal) (b : Fin 512 → EReal)
    (A' : Fin 512 → Fin 512 → EReal) (B' : Fin 256 → Fin 512 → EReal) (b' : Fin 512 → EReal) (q : Fin 512) : EReal :=
  (affine (fun k => forget one half h x A B b k * h k) x A' B' b' q
      - forget one half h x A B b q * affine (fun k => forget one half h x A B b k * h k) x A' B' b' q)
    + forget one half h x A B b q * h q

/-- Column `k` of the hidden part inside a joined row of 768. -/
abbrev hcol (k : Fin 512) : Fin 768 := ⟨k.val, by omega⟩
/-- Column `k` of the input part inside a joined row of 768. -/
abbrev xcol (k : Fin 256) : Fin 768 := ⟨512 + k.val, by omega⟩

/-- A sum over a joined row is the sum over its hidden part plus the sum over its input part. -/
theorem sum_joined (f : Fin 768 → EReal) :
    ∑ k : Fin 768, f k = ∑ k : Fin 512, f (hcol k) + ∑ k : Fin 256, f (xcol k) :=
  Fin.sum_univ_add (a := 512) (b := 256) f

/-- THE RESULT as one function of the six argument arrays: row `i 0`, column `i 1`; the weights' hidden and input
    columns are the first 512 and the last 256 columns of a 768-column row, read transposed (`A k q = w (q, k)`). -/
def G (x : FVec Ideal ⟨2, ![65536, 256]⟩ .f32) (hx : FVec Ideal ⟨2, ![65536, 512]⟩ .f32)
    (wf : FVec Ideal ⟨2, ![512, 768]⟩ .f32) (bf : FVec Ideal ⟨1, ![512]⟩ .f32)
    (wn : FVec Ideal ⟨2, ![512, 768]⟩ .f32) (bn : FVec Ideal ⟨1, ![512]⟩ .f32) : FVec Ideal ⟨2, ![65536, 512]⟩ .f32 :=
  fun i => cell (Ideal.ofBits .f32 0x3F800000#32) (Ideal.ofBits .f32 0x3F000000#32)
    (fun k => hx (ix2 (i 0 : Fin 65536) k)) (fun k => x (ix2 (i 0 : Fin 65536) k))
    (fun k q => wf (ix2 q (hcol k))) (fun k q => wf (ix2 q (xcol k))) (fun q => bf (ix1 q))
    (fun k q => wn (ix2 q (hcol k))) (fun k q => wn (ix2 q (xcol k))) (fun q => bn (ix1 q)) (i 1 : Fin 512)

end Cert.Mgu

end
-- ==== Proof.KernelPayload.lean ====
/-
  The kernel body's one stored value, read at row p and column q of its 1024 x 512 block.

  The body forms, from the input block x (1024 x 256), the hidden block h (1024 x 512), two weight pairs (512 x 512 and
  256 x 512) and two bias rows (1 x 512): the forget gate from the two products h·A + x·B plus the bias row, shifted by
  one and halved; the gated state fg * h; the new gate from (fg * h)·A' + x·B' plus its bias row; and the result
  (ng - fg * ng) + fg * h. Narrowing to bf16 is the identity on the extended reals, each product into the zero
  accumulator is a plain sum over the contracted axis, a shape cast to the same shape is the identity, and the bias
  row broadcast over the rows reads its column: so at (p, q) the stored value is the cell of row p at column q.
-/
import proofs.«168205_j25469156065829_1_alg».proof.Proof.Gen.KernelIdeal.Skeleton
import proofs.«168205_j25469156065829_1_alg».proof.Proof.LibMatmul
import proofs.«168205_j25469156065829_1_alg».proof.Proof.Spec
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Mgu

/-- The product with the hidden-part weights, into the zero accumulator, at (p, q). -/
theorem mm_hidden (l : FVec Ideal S1024x512 .bf16) (r : FVec Ideal S512x512 .bf16) (p : Fin 1024) (q : Fin 512) :
    matmul dot_S1024x512_S512x512_S1024x512_1_0_0_1_n_n none l r (constant S1024x512 .f32 0x00000000#32) (ix2 p q)
      = ∑ k : Fin 512, l (ix2 p k) * r (ix2 k q) :=
  Cert.Matmul.matmul_plain_apply (M := 1024) (K := 512) (N := 512) none l r p q

/-- The product with the input-part weights, into the zero accumulator, at (p, q). -/
theorem mm_input (l : FVec Ideal S1024x256 .bf16) (r : FVec Ideal S256x512 .bf16) (p : Fin 1024) (q : Fin 512) :
    matmul dot_S1024x256_S256x512_S1024x512_1_0_0_1_n_n none l r (constant S1024x512 .f32 0x00000000#32) (ix2 p q)
      = ∑ k : Fin 256, l (ix2 p k) * r (ix2 k q) :=
  Cert.Matmul.matmul_plain_apply (M := 1024) (K := 256) (N := 512) none l r p q

/-- One gate as the body spells it — the two products added, then the bias row broadcast over the rows — is the
    affine gate of row p at column q. -/
theorem gate_apply (l1 : FVec Ideal S1024x512 .bf16) (r1 : FVec Ideal S512x512 .bf16) (l2 : FVec Ideal S1024x256 .bf16)
    (r2 : FVec Ideal S256x512 .bf16) (bv : FVec Ideal S1x512 .f32) (p : Fin 1024) (q : Fin 512) :
    addf (addf (matmul dot_S1024x512_S512x512_S1024x512_1_0_0_1_n_n none l1 (shapeCast S512x512 r1 shapeCasts_S512x512_S512x512) (constant S1024x512 .f32 0x00000000#32))
        (matmul dot_S1024x256_S256x512_S1024x512_1_0_0_1_n_n none l2 (shapeCast S256x512 r2 shapeCasts_S256x512_S256x512) (constant S1024x512 .f32 0x00000000#32)))
      (broadcastTo S1024x512 (shapeCast S1x512 bv shapeCasts_S1x512_S1x512) broadcasts_S1x512_S1024x512) (ix2 p q)
      = affine (fun k => l1 (ix2 p k)) (fun k => l2 (ix2 p k)) (fun k q => r1 (ix2 k q)) (fun k q => r2 (ix2 k q))
          (fun q => bv (ix2 (0 : Fin 1) q)) q := by
  rw [addf_apply, addf_apply, mm_hidden, mm_input, shapeCast_self, shapeCast_self, shapeCast_self,
    broadcastTo_1b_ab_apply]
  rfl

/-- The forget gate as a whole block. -/
def fgBlock (v0 : Vec Ideal S1024x256 .f32) (v1 : Vec Ideal S1024x512 .f32) (v4 : Vec Ideal S512x512 .bf16)
    (v7 : Vec Ideal S256x512 .bf16) (v11 : Vec Ideal S1x512 .f32) : FVec Ideal S1024x512 .f32 :=
  mulf (addf (addf (addf (matmul dot_S1024x512_S512x512_S1024x512_1_0_0_1_n_n none (truncf .bf16 (v1 : FVec Ideal S1024x512 .f32) bitsLt_bf16_f32 : FVec Ideal S1024x512 .bf16) (shapeCast S512x512 v4 shapeCasts_S512x512_S512x512 : FVec Ideal S512x512 .bf16) (constant S1024x512 .f32 0x00000000#32))
        (matmul dot_S1024x256_S256x512_S1024x512_1_0_0_1_n_n none (truncf .bf16 (v0 : FVec Ideal S1024x256 .f32) bitsLt_bf16_f32 : FVec Ideal S1024x256 .bf16) (shapeCast S256x512 v7 shapeCasts_S256x512_S256x512 : FVec Ideal S256x512 .bf16) (constant S1024x512 .f32 0x00000000#32)))
      (broadcastTo S1024x512 (shapeCast S1x512 v11 shapeCasts_S1x512_S1x512 : FVec Ideal S1x512 .f32) broadcasts_S1x512_S1024x512))
    (broadcast S1024x512 (Scalar.ofBits .f32 0x3F800000#32))) (broadcast S1024x512 (Scalar.ofBits .f32 0x3F000000#32))

/-- The forget gate's block at (p, q) is the forget gate of row p at column q. -/
theorem fgBlock_apply (v0 : Vec Ideal S1024x256 .f32) (v1 : Vec Ideal S1024x512 .f32) (v4 : Vec Ideal S512x512 .bf16)
    (v7 : Vec Ideal S256x512 .bf16) (v11 : Vec Ideal S1x512 .f32) (p : Fin 1024) (q : Fin 512) :
    fgBlock v0 v1 v4 v7 v11 (ix2 p q)
      = forget (Ideal.ofBits .f32 0x3F800000#32) (Ideal.ofBits .f32 0x3F000000#32)
          (fun k => v1 (ix2 p k)) (fun k => v0 (ix2 p k)) (fun k q => v4 (ix2 k q)) (fun k q => v7 (ix2 k q))
          (fun q => v11 (ix2 (0 : Fin 1) q)) q := by
  unfold fgBlock
  rw [mulf_apply, addf_apply, gate_apply]
  rfl

/-- THE STORED VALUE at (p, q): the cell of row p at column q. -/
theorem pay_apply (v0 : Vec Ideal S1024x256 .f32) (v1 : Vec Ideal S1024x512 .f32) (v4 : Vec Ideal S512x512 .bf16)
    (v7 : Vec Ideal S256x512 .bf16) (v11 : Vec Ideal S1x512 .f32) (v21 : Vec Ideal S512x512 .bf16)
    (v24 : Vec Ideal S256x512 .bf16) (v28 : Vec Ideal S1x512 .f32) (p : Fin 1024) (q : Fin 512) :
    k0_pay1 (F := Ideal) v0 v1 v4 v7 v11 v21 v24 v28 (ix2 p q)
      = cell (Ideal.ofBits .f32 0x3F800000#32) (Ideal.ofBits .f32 0x3F000000#32)
          (fun k => v1 (ix2 p k)) (fun k => v0 (ix2 p k)) (fun k q => v4 (ix2 k q)) (fun k q => v7 (ix2 k q))
          (fun q => v11 (ix2 (0 : Fin 1) q)) (fun k q => v21 (ix2 k q)) (fun k q => v24 (ix2 k q))
          (fun q => v28 (ix2 (0 : Fin 1) q)) q := by
  -- the body's value, with the forget gate's block named
  have hpay : k0_pay1 (F := Ideal) v0 v1 v4 v7 v11 v21 v24 v28
      = addf (subf
          (addf (addf (matmul dot_S1024x512_S512x512_S1024x512_1_0_0_1_n_n none (truncf .bf16 (mulf (fgBlock v0 v1 v4 v7 v11) (v1 : FVec Ideal S1024x512 .f32)) bitsLt_bf16_f32 : FVec Ideal S1024x512 .bf16) (shapeCast S512x512 v21 shapeCasts_S512x512_S512x512 : FVec Ideal S512x512 .bf16) (constant S1024x512 .f32 0x00000000#32))
              (matmul dot_S1024x256_S256x512_S1024x512_1_0_0_1_n_n none (truncf .bf16 (v0 : FVec Ideal S1024x256 .f32) bitsLt_bf16_f32 : FVec Ideal S1024x256 .bf16) (shapeCast S256x512 v24 shapeCasts_S256x512_S256x512 : FVec Ideal S256x512 .bf16) (constant S1024x512 .f32 0x00000000#32)))
            (broadcastTo S1024x512 (shapeCast S1x512 v28 shapeCasts_S1x512_S1x512 : FVec Ideal S1x512 .f32) broadcasts_S1x512_S1024x512))
          (mulf (fgBlock v0 v1 v4 v7 v11)
            (addf (addf (matmul dot_S1024x512_S512x512_S1024x512_1_0_0_1_n_n none (truncf .bf16 (mulf (fgBlock v0 v1 v4 v7 v11) (v1 : FVec Ideal S1024x512 .f32)) bitsLt_bf16_f32 : FVec Ideal S1024x512 .bf16) (shapeCast S512x512 v21 shapeCasts_S512x512_S512x512 : FVec Ideal S512x512 .bf16) (constant S1024x512 .f32 0x00000000#32))
              (matmul dot_S1024x256_S256x512_S1024x512_1_0_0_1_n_n none (truncf .bf16 (v0 : FVec Ideal S1024x256 .f32) bitsLt_bf16_f32 : FVec Ideal S1024x256 .bf16) (shapeCast S256x512 v24 shapeCasts_S256x512_S256x512 : FVec Ideal S256x512 .bf16) (constant S1024x512 .f32 0x00000000#32)))
            (broadcastTo S1024x512 (shapeCast S1x512 v28 shapeCasts_S1x512_S1x512 : FVec Ideal S1x512 .f32) broadcasts_S1x512_S1024x512))))
        (mulf (fgBlock v0 v1 v4 v7 v11) v1) := rfl
  rw [hpay, addf_apply, subf_apply, mulf_apply, mulf_apply, gate_apply, fgBlock_apply]
  unfold cell
  have hrow : (fun k : Fin 512 => truncf .bf16 (mulf (fgBlock v0 v1 v4 v7 v11) v1) bitsLt_bf16_f32 (ix2 p k))
      = fun k : Fin 512 => forget (Ideal.ofBits .f32 0x3F800000#32) (Ideal.ofBits .f32 0x3F000000#32)
          (fun k => v1 (ix2 p k)) (fun k => v0 (ix2 p k)) (fun k q => v4 (ix2 k q)) (fun k q => v7 (ix2 k q))
          (fun q => v11 (ix2 (0 : Fin 1) q)) k * v1 (ix2 p k) := by
    funext k
    rw [truncf_apply, mulf_apply, fgBlock_apply]
  rw [hrow]
  rfl

end Cert.KernelIdeal.Payload

end
-- ==== Proof.KernelValue.lean ====
/-
  From the kernel's blocks to its result array.

  The grid has 64 points; point t stages rows 1024 t … 1024 t + 1023 of the input x and of the hidden state, the whole
  of each weight piece and bias row, and writes back rows 1024 t … 1024 t + 1023 of the result. The weight pieces the
  region finds are made by the host before it: each 512 x 768 weight matrix is transposed, narrowed (the identity on the
  extended reals) and cut at row 512 into its hidden piece (rows 0 … 511) and its input piece (rows 512 … 767), so
  piece entry (k, q) is the weight matrix at (q, k) resp. (q, 512 + k); each bias vector is reshaped to one row.
  Hence what point t writes back is block t of the cell function G of the six arguments, the 64 blocks tile the
  result's 65536 rows, and the result array ends holding G.
-/
import proofs.«168205_j25469156065829_1_alg».proof.Proof.Gen.KernelIdeal.Value
import proofs.«168205_j25469156065829_1_alg».proof.Proof.KernelPayload
import Idealize.ShloMosaic.Lib.StableHlo.Run
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Mgu
open Idealize.ShloMosaic.Pipeline (Dat)

variable (m : (ℓ : Loc nD τ sig) → Buf (Elt Ideal) ℓ) (ρ : Dev nD → PrngReg)

/-! ## The six arguments, at their literal types -/

abbrev xArr (c : Dev nD) : FVec Ideal S65536x256 .f32 := m ((c : Thread nD τ).loc main_arg0)
abbrev hArr (c : Dev nD) : FVec Ideal S65536x512 .f32 := m ((c : Thread nD τ).loc main_arg1)
abbrev wfArr (c : Dev nD) : FVec Ideal S512x768 .f32 := m ((c : Thread nD τ).loc main_arg2)
abbrev bfArr (c : Dev nD) : FVec Ideal S512 .f32 := m ((c : Thread nD τ).loc main_arg3)
abbrev wnArr (c : Dev nD) : FVec Ideal S512x768 .f32 := m ((c : Thread nD τ).loc main_arg4)
abbrev bnArr (c : Dev nD) : FVec Ideal S512 .f32 := m ((c : Thread nD τ).loc main_arg5)

/-- The result array the kernel is shown to leave. -/
abbrev result (c : Dev nD) : FVec Ideal S65536x512 .f32 :=
  G (xArr m c) (hArr m c) (wfArr m c) (bfArr m c) (wnArr m c) (bnArr m c)

/-! ## The host's weight pieces and bias rows, read at an index -/

/-- The hidden piece of a transposed, narrowed weight matrix at (k, q) is the matrix at (q, k). -/
theorem hidden_piece_apply (w : FVec Ideal S512x768 .f32) (k : Fin 512) (q : Fin 512) :
    extractStridedSlice S512x512 ![0, 0]
        (truncf .bf16 (transpose S768x512 [1, 0] w transposes_S512x768_S768x512_1_0) bitsLt_bf16_f32 : FVec Ideal S768x512 .bf16)
        slices_S768x512_S512x512_0_0 (ix2 k q) = w (ix2 q (hcol k)) := by
  rw [extractStridedSlice_apply _ _ _ (ix2 k q) (ix2 (hcol k) q) (fun a => match a with
    | ⟨0, _⟩ => (Nat.zero_add _).symm
    | ⟨1, _⟩ => (Nat.zero_add _).symm), truncf_apply]
  exact transpose_ix2_apply w _ (hcol k) q

/-- The input piece at (k, q) is the matrix at (q, 512 + k). -/
theorem input_piece_apply (w : FVec Ideal S512x768 .f32) (k : Fin 256) (q : Fin 512) :
    extractStridedSlice S256x512 ![512, 0]
        (truncf .bf16 (transpose S768x512 [1, 0] w transposes_S512x768_S768x512_1_0) bitsLt_bf16_f32 : FVec Ideal S768x512 .bf16)
        slices_S768x512_S256x512_512_0 (ix2 k q) = w (ix2 q (xcol k)) := by
  rw [extractStridedSlice_apply _ _ _ (ix2 k q) (ix2 (xcol k) q) (fun a => match a with
    | ⟨0, _⟩ => rfl
    | ⟨1, _⟩ => (Nat.zero_add _).symm), truncf_apply]
  exact transpose_ix2_apply w _ (xcol k) q

/-- What the region finds in each of the six buffers the host wrote. -/
theorem V_wfh (c : Dev nD) : (V m c main_v4 : S512x512.Idx → EReal) = extractStridedSlice S512x512 ![0, 0]
    (truncf .bf16 (transpose S768x512 [1, 0] (wfArr m c) transposes_S512x768_S768x512_1_0) bitsLt_bf16_f32 : FVec Ideal S768x512 .bf16)
    slices_S768x512_S512x512_0_0 := by
  dsimp only [Gen.V, Gen.hostOps0]; after_results
theorem V_wfx (c : Dev nD) : (V m c main_v5 : S256x512.Idx → EReal) = extractStridedSlice S256x512 ![512, 0]
    (truncf .bf16 (transpose S768x512 [1, 0] (wfArr m c) transposes_S512x768_S768x512_1_0) bitsLt_bf16_f32 : FVec Ideal S768x512 .bf16)
    slices_S768x512_S256x512_512_0 := by
  dsimp only [Gen.V, Gen.hostOps0]; after_results
theorem V_wnh (c : Dev nD) : (V m c main_v6 : S512x512.Idx → EReal) = extractStridedSlice S512x512 ![0, 0]
    (truncf .bf16 (transpose S768x512 [1, 0] (wnArr m c) transposes_S512x768_S768x512_1_0) bitsLt_bf16_f32 : FVec Ideal S768x512 .bf16)
    slices_S768x512_S512x512_0_0 := by
  dsimp only [Gen.V, Gen.hostOps0]; after_results
theorem V_wnx (c : Dev nD) : (V m c main_v7 : S256x512.Idx → EReal) = extractStridedSlice S256x512 ![512, 0]
    (truncf .bf16 (transpose S768x512 [1, 0] (wnArr m c) transposes_S512x768_S768x512_1_0) bitsLt_bf16_f32 : FVec Ideal S768x512 .bf16)
    slices_S768x512_S256x512_512_0 := by
  dsimp only [Gen.V, Gen.hostOps0]; after_results
theorem V_bf (c : Dev nD) : (V m c main_v8 : S1x512.Idx → EReal) = shapeCast S1x512 (bfArr m c) shapeCasts_S512_S1x512 := by
  dsimp only [Gen.V, Gen.hostOps0]; after_results; rfl
theorem V_bn (c : Dev nD) : (V m c main_v9 : S1x512.Idx → EReal) = shapeCast S1x512 (bnArr m c) shapeCasts_S512_S1x512 := by
  dsimp only [Gen.V, Gen.hostOps0]; after_results; rfl

/-! ## One block's stored value is a block of G -/

theorem hz : (![0, 0] : Fin 2 → Nat) = fun _ => 0 := funext fun a => by fin_cases a <;> rfl

/-- If the eight loaded blocks are: rows b … b + 1023 of x and of the hidden state, the weight pieces and the bias rows
    as the host makes them, then the stored block at (p, q) is G at (b + p, q). -/
theorem block_cell (X : FVec Ideal S65536x256 .f32) (H : FVec Ideal S65536x512 .f32) (Wf : FVec Ideal S512x768 .f32)
    (Bf : FVec Ideal S512 .f32) (Wn : FVec Ideal S512x768 .f32) (Bn : FVec Ideal S512 .f32)
    (x0 : Vec Ideal S1024x256 .f32) (x1 : Vec Ideal S1024x512 .f32) (x2 : Vec Ideal S512x512 .bf16) (x3 : Vec Ideal S256x512 .bf16)
    (x4 : Vec Ideal S1x512 .f32) (x5 : Vec Ideal S512x512 .bf16) (x6 : Vec Ideal S256x512 .bf16) (x7 : Vec Ideal S1x512 .f32)
    (b : Nat) (hb : ∀ p : Fin 1024, b + p.val < 65536)
    (h0 : ∀ (p : Fin 1024) (k : Fin 256), x0 (ix2 p k) = X (ix2 ⟨b + p.val, hb p⟩ k))
    (h1 : ∀ (p : Fin 1024) (k : Fin 512), x1 (ix2 p k) = H (ix2 ⟨b + p.val, hb p⟩ k))
    (h2 : ∀ (k : Fin 512) (q : Fin 512), x2 (ix2 k q) = Wf (ix2 q (hcol k)))
    (h3 : ∀ (k : Fin 256) (q : Fin 512), x3 (ix2 k q) = Wf (ix2 q (xcol k)))
    (h4 : ∀ q : Fin 512, x4 (ix2 (0 : Fin 1) q) = Bf (ix1 q))
    (h5 : ∀ (k : Fin 512) (q : Fin 512), x5 (ix2 k q) = Wn (ix2 q (hcol k)))
    (h6 : ∀ (k : Fin 256) (q : Fin 512), x6 (ix2 k q) = Wn (ix2 q (xcol k)))
    (h7 : ∀ q : Fin 512, x7 (ix2 (0 : Fin 1) q) = Bn (ix1 q))
    (p : Fin 1024) (q : Fin 512) :
    out0_8 x0 x1 x2 x3 x4 x5 x6 x7 (ix2 p q) = G X H Wf Bf Wn Bn (ix2 ⟨b + p.val, hb p⟩ q) := by
  unfold out0_8
  rw [View.canon_unit_zero hz]
  simp only [View.ld_unit_zero (S := S1024x256) hz, View.ld_unit_zero (S := S1024x512) hz, View.ld_unit_zero (S := S512x512) hz,
    View.ld_unit_zero (S := S256x512) hz, View.ld_unit_zero (S := S1x512) hz]
  refine (Cert.KernelIdeal.Payload.pay_apply x0 x1 x2 x3 x4 x5 x6 x7 p q).trans ?_
  have e0 : (fun k : Fin 256 => x0 (ix2 p k)) = fun k => X (ix2 ⟨b + p.val, hb p⟩ k) := funext (h0 p)
  have e1 : (fun k : Fin 512 => x1 (ix2 p k)) = fun k => H (ix2 ⟨b + p.val, hb p⟩ k) := funext (h1 p)
  have e2 : (fun (k : Fin 512) (q : Fin 512) => x2 (ix2 k q)) = fun k q => Wf (ix2 q (hcol k)) := funext fun k => funext (h2 k)
  have e3 : (fun (k : Fin 256) (q : Fin 512) => x3 (ix2 k q)) = fun k q => Wf (ix2 q (xcol k)) := funext fun k => funext (h3 k)
  have e4 : (fun q : Fin 512 => x4 (ix2 (0 : Fin 1) q)) = fun q => Bf (ix1 q) := funext h4
  have e5 : (fun (k : Fin 512) (q : Fin 512) => x5 (ix2 k q)) = fun k q => Wn (ix2 q (hcol k)) := funext fun k => funext (h5 k)
  have e6 : (fun (k : Fin 256) (q : Fin 512) => x6 (ix2 k q)) = fun k q => Wn (ix2 q (xcol k)) := funext fun k => funext (h6 k)
  have e7 : (fun q : Fin 512 => x7 (ix2 (0 : Fin 1) q)) = fun q => Bn (ix1 q) := funext h7
  rw [e0, e1, e2, e3, e4, e5, e6, e7]
  rfl

/-! ## The windows' blocks at a point -/

/-- The printed index maps over the 64 points: x, the hidden state and the result move one block of rows per point; the
    weight pieces and bias rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem row_lt (t : Fin cfg0.N) (p : Fin 1024) : t.val * 1024 + p.val < 65536 := by
  have ht : t.val < 64 := Nat.lt_of_lt_of_eq t.isLt N_0
  have hp := p.isLt
  omega

/-- WHAT POINT t WRITES BACK is block t of the result function. -/
theorem flushed_eq (c : Dev nD) (t : Fin cfg0.N) :
    (dats m 0 c).flushed 8 t = ((cfg0.win 8).blk t).view.read (Elt Ideal) (result m c) := by
  rw [Cert.KernelIdeal.Value.flushed8]
  obtain ⟨a00, a01, a10, a11, a20, a21, a30, a31, a40, a41, a50, a51, a60, a61, a70, a71, a80, a81⟩ := idx_facts t
  funext j
  obtain ⟨p, q, rfl⟩ : ∃ (p : Fin 1024) (q : Fin 512), j = ix2 p q := ⟨j 0, j 1, eq_ix2 j⟩
  show out0_8 (iblk m c 0 t) (iblk m c 1 t) (iblk m c 2 t) (iblk m c 3 t) (iblk m c 4 t) (iblk m c 5 t) (iblk m c 6 t) (iblk m c 7 t) (ix2 p q)
    = result m c (((cfg0.win 8).blk t).view.emb (ix2 p q))
  refine (block_cell (xArr m c) (hArr m c) (wfArr m c) (bfArr m c) (wnArr m c) (bnArr m c) _ _ _ _ _ _ _ _ (t.val * 1024) (row_lt t)
    ?_ ?_ ?_ ?_ ?_ ?_ ?_ ?_ p q).trans ?_
  · intro p k
    show V m c main_arg0 (((cfg0.win 0).blk t).view.emb (ix2 p k)) = _
    rw [V_main_arg0]
    refine congrArg (xArr m c) (funext fun a => Fin.ext ?_)
    match a with
    | ⟨0, _⟩ => show win0_0.index t (0 : Fin 2) * 1024 + 1 * p.val = t.val * 1024 + p.val; omega
    | ⟨1, _⟩ => show win0_0.index t (1 : Fin 2) * 256 + 1 * k.val = k.val; omega
  · intro p k
    show V m c main_arg1 (((cfg0.win 1).blk t).view.emb (ix2 p k)) = _
    rw [V_main_arg1]
    refine congrArg (hArr m c) (funext fun a => Fin.ext ?_)
    match a with
    | ⟨0, _⟩ => show win0_1.index t (0 : Fin 2) * 1024 + 1 * p.val = t.val * 1024 + p.val; omega
    | ⟨1, _⟩ => show win0_1.index t (1 : Fin 2) * 512 + 1 * k.val = k.val; omega
  · intro k q
    show (V m c main_v4 : S512x512.Idx → EReal) (((cfg0.win 2).blk t).view.emb (ix2 k q)) = _
    rw [V_wfh, ← hidden_piece_apply (wfArr m c) k q]
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * q.val = q.val; omega
  · intro k q
    show (V m c main_v5 : S256x512.Idx → EReal) (((cfg0.win 3).blk t).view.emb (ix2 k q)) = _
    rw [V_wfx, ← input_piece_apply (wfArr m c) k q]
    refine congrArg _ (funext fun a => Fin.ext ?_)
    match a with
    | ⟨0, _⟩ => show win0_3.index t (0 : Fin 2) * 256 + 1 * k.val = k.val; omega
    | ⟨1, _⟩ => show win0_3.index t (1 : Fin 2) * 512 + 1 * q.val = q.val; omega
  · intro q
    show (V m c main_v8 : S1x512.Idx → EReal) (((cfg0.win 4).blk t).view.emb (ix2 (0 : Fin 1) q)) = _
    rw [V_bf, ← shapeCast_a_1a_apply (bfArr m c) shapeCasts_S512_S1x512 (0 : Fin 1) q]
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * q.val = q.val; omega
  · intro k q
    show (V m c main_v6 : S512x512.Idx → EReal) (((cfg0.win 5).blk t).view.emb (ix2 k q)) = _
    rw [V_wnh, ← hidden_piece_apply (wnArr m c) k q]
    refine congrArg _ (funext fun a => Fin.ext ?_)
    match a with
    | ⟨0, _⟩ => show win0_5.index t (0 : Fin 2) * 512 + 1 * k.val = k.val; omega
    | ⟨1, _⟩ => show win0_5.index t (1 : Fin 2) * 512 + 1 * q.val = q.val; omega
  · intro k q
    show (V m c main_v7 : S256x512.Idx → EReal) (((cfg0.win 6).blk t).view.emb (ix2 k q)) = _
    rw [V_wnx, ← input_piece_apply (wnArr m c) k q]
    refine congrArg _ (funext fun a => Fin.ext ?_)
    match a with
    | ⟨0, _⟩ => show win0_6.index t (0 : Fin 2) * 256 + 1 * k.val = k.val; omega
    | ⟨1, _⟩ => show win0_6.index t (1 : Fin 2) * 512 + 1 * q.val = q.val; omega
  · intro q
    show (V m c main_v9 : S1x512.Idx → EReal) (((cfg0.win 7).blk t).view.emb (ix2 (0 : Fin 1) q)) = _
    rw [V_bn, ← shapeCast_a_1a_apply (bnArr m c) shapeCasts_S512_S1x512 (0 : Fin 1) q]
    refine congrArg _ (funext fun a => Fin.ext ?_)
    match a with
    | ⟨0, _⟩ => show win0_7.index t (0 : Fin 2) * 1 + 1 * 0 = 0; omega
    | ⟨1, _⟩ => show win0_7.index t (1 : Fin 2) * 512 + 1 * q.val = q.val; omega
  · refine congrArg (result m c) (funext fun a => Fin.ext ?_)
    match a with
    | ⟨0, _⟩ => show t.val * 1024 + p.val = win0_8.index t (0 : Fin 2) * 1024 + 1 * p.val; omega
    | ⟨1, _⟩ => show q.val = win0_8.index t (1 : Fin 2) * 512 + 1 * q.val; omega

/-- Every row of the result lies in the block of the point its row number divided by 1024 names. -/
theorem cover (i : S65536x512.Idx) : ∃ t : Fin cfg0.N, (cfg0.win 8).flush t = true ∧ i ∈ ((cfg0.win 8).blk t).view.set := by
  have hi0 : (i 0).val < 65536 := (i 0).isLt
  have hi1 : (i 1).val < 512 := (i 1).isLt
  have hlt : (i 0).val / 1024 < cfg0.N := Nat.lt_of_lt_of_eq (by omega : (i 0).val / 1024 < 64) N_0.symm
  obtain ⟨t, ht⟩ : ∃ t : Fin cfg0.N, t.val = (i 0).val / 1024 := ⟨⟨_, hlt⟩, rfl⟩
  refine ⟨t, flush0_8 t, ?_⟩
  obtain ⟨-, -, -, -, -, -, -, -, -, -, -, -, -, -, -, -, a80, a81⟩ := idx_facts t
  show i ∈ ((View.whole main_v10).slice (win0_8.rect t)).set
  rw [View.set_slice_whole, Rect.mem_set_unit]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 512 ≤ (i 1).val ∧ (i 1).val < win0_8.index t (1 : Fin 2) * 512 + 512
    omega

/-- THE RESULT ARRAY after the run is the cell function of the six arguments. -/
theorem final (c : Dev nD) : (dats m 0 c).arrAt 8 cfg0.N = result m c :=
  (dats m 0 c).arrAt_eq_of_cover 8 (result m c) (fun t _ => flushed_eq m c t) cover

/-- The kernel's run, read: the result array at the cell function, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Hand

end
-- ==== Proof.RefValue.lean ====
/-
  The reference's result, read at row p and column q, is the cell of row p at column q.

  The reference joins each row's hidden part and input part into one row of 768 and contracts it with a weight row of
  768 columns; a joined row read at a hidden column is the hidden part there, at an input column the input part 512
  columns earlier. Splitting each 768-term sum at column 512 gives the affine gate of the split row. The bias is
  broadcast through a unit row, and the two constants are splats.
-/
import proofs.«168205_j25469156065829_1_alg».proof.Proof.Gen.ReferenceIdeal.Read
import proofs.«168205_j25469156065829_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Mgu

/-- A joined row (first piece 512 wide, second piece 256 wide) at a hidden column reads the first piece. -/
theorem joined_hidden (a : FVec Ideal S65536x512 .f32) (b : FVec Ideal S65536x256 .f32) (p : Fin 65536) (k : Fin 512) :
    concatenate S65536x768 1 [⟨S65536x512, a⟩, ⟨S65536x256, b⟩] concatenates_S65536x512_S65536x256_S65536x768_d1 (ix2 p (hcol k))
      = a (ix2 p k) :=
  concatenate_pair_apply_left (1 : Fin S65536x768.rank) a b _ (ix2 p (hcol k)) rfl (ix2 p k)
    (fun c => match c with | ⟨0, _⟩ => rfl | ⟨1, _⟩ => rfl)

/-- A joined row at an input column reads the second piece, 512 columns earlier. -/
theorem joined_input (a : FVec Ideal S65536x512 .f32) (b : FVec Ideal S65536x256 .f32) (p : Fin 65536) (k : Fin 256) :
    concatenate S65536x768 1 [⟨S65536x512, a⟩, ⟨S65536x256, b⟩] concatenates_S65536x512_S65536x256_S65536x768_d1 (ix2 p (xcol k))
      = b (ix2 p k) :=
  concatenate_pair_apply_right (1 : Fin S65536x768.rank) a b _ (ix2 p (xcol k)) rfl rfl (ix2 p k)
    (fun c hc => match c, hc with | ⟨0, _⟩, _ => rfl | ⟨1, _⟩, hc => absurd rfl hc)
    (by show k.val + 512 = 512 + k.val; omega)

/-- A contraction of a joined row against a 768-column weight row, at (p, q), plus the bias broadcast through a unit
    row: the affine gate of the split row. -/
theorem joined_gate (a : FVec Ideal S65536x512 .f32) (b : FVec Ideal S65536x256 .f32) (w : FVec Ideal S512x768 .f32)
    (bias : FVec Ideal S512 .f32) (p : Fin 65536) (q : Fin 512) :
    (∑ k : Fin 768, concatenate S65536x768 1 [⟨S65536x512, a⟩, ⟨S65536x256, b⟩] concatenates_S65536x512_S65536x256_S65536x768_d1 (ix2 p k) * w (ix2 q k))
        + bias (ix1 q)
      = affine (fun k => a (ix2 p k)) (fun k => b (ix2 p k)) (fun k q => w (ix2 q (hcol k))) (fun k q => w (ix2 q (xcol k)))
          (fun q => bias (ix1 q)) q := by
  rw [sum_joined]
  simp only [joined_hidden, joined_input]
  rfl

/-- The index functions of the two contractions, and of the bias broadcasts, on coordinates. -/
theorem lidx1 (p : Fin 65536) (q : Fin 512) (k : Fin 768) : lidx_main_v1 (ix2 p q) k = ix2 p k :=
  funext fun a => Fin.ext (by match a with | ⟨0, _⟩ => rfl | ⟨1, _⟩ => rfl)
theorem ridx1 (p : Fin 65536) (q : Fin 512) (k : Fin 768) : ridx_main_v1 (ix2 p q) k = ix2 q k :=
  funext fun a => Fin.ext (by match a with | ⟨0, _⟩ => rfl | ⟨1, _⟩ => rfl)
theorem lidx11 (p : Fin 65536) (q : Fin 512) (k : Fin 768) : lidx_main_v11 (ix2 p q) k = ix2 p k :=
  funext fun a => Fin.ext (by match a with | ⟨0, _⟩ => rfl | ⟨1, _⟩ => rfl)
theorem ridx11 (p : Fin 65536) (q : Fin 512) (k : Fin 768) : ridx_main_v11 (ix2 p q) k = ix2 q k :=
  funext fun a => Fin.ext (by match a with | ⟨0, _⟩ => rfl | ⟨1, _⟩ => rfl)
theorem bias_idx3 (p : Fin 65536) (q : Fin 512) : idx_main_v2 (idx_main_v3 (ix2 p q)) = ix1 q :=
  funext fun a => Fin.ext (by match a with | ⟨0, _⟩ => rfl)
theorem bias_idx13 (p : Fin 65536) (q : Fin 512) : idx_main_v12 (idx_main_v13 (ix2 p q)) = ix1 q :=
  funext fun a => Fin.ext (by match a with | ⟨0, _⟩ => rfl)

variable (x0 : FVec Ideal S65536x256 .f32) (x1 : FVec Ideal S65536x512 .f32) (x2 : FVec Ideal S512x768 .f32)
  (x3 : FVec Ideal S512 .f32) (x4 : FVec Ideal S512x768 .f32) (x5 : FVec Ideal S512 .f32)

/-- The forget gate's stage at (p, q). -/
theorem forget_apply (p : Fin 65536) (q : Fin 512) :
    val_main_v8 (F := Ideal) x0 x1 x2 x3 (ix2 p q)
      = forget (Ideal.ofBits .f32 0x3F800000#32) (Ideal.ofBits .f32 0x3F000000#32)
          (fun k => x1 (ix2 p k)) (fun k => x0 (ix2 p k)) (fun k q => x2 (ix2 q (hcol k))) (fun k q => x2 (ix2 q (xcol k)))
          (fun q => x3 (ix1 q)) q := by
  rw [val_main_v8_apply, val_main_v6_apply, val_main_v4_apply, val_main_v1_apply, val_main_v3_apply, val_main_v2_apply,
    val_main_v5_apply, val_main_v7_apply, val_main_cst_apply, val_main_cst_0_apply, bias_idx3]
  simp only [lidx1, ridx1]
  unfold val_main_v0 forget
  rw [Ideal.addf_def, Ideal.addf_def, Ideal.mulf_def, joined_gate]
  rfl

/-- The gated state's stage at (p, q). -/
theorem gated_apply (p : Fin 65536) (q : Fin 512) :
    val_main_v9 (F := Ideal) x0 x1 x2 x3 (ix2 p q)
      = forget (Ideal.ofBits .f32 0x3F800000#32) (Ideal.ofBits .f32 0x3F000000#32)
          (fun k => x1 (ix2 p k)) (fun k => x0 (ix2 p k)) (fun k q => x2 (ix2 q (hcol k))) (fun k q => x2 (ix2 q (xcol k)))
          (fun q => x3 (ix1 q)) q * x1 (ix2 p q) := by
  rw [val_main_v9_apply, forget_apply, Ideal.mulf_def]

/-- The new gate's stage at (p, q). -/
theorem newgate_apply (p : Fin 65536) (q : Fin 512) :
    val_main_v14 (F := Ideal) x0 x1 x2 x3 x4 x5 (ix2 p q)
      = affine (fun k => forget (Ideal.ofBits .f32 0x3F800000#32) (Ideal.ofBits .f32 0x3F000000#32)
          (fun k => x1 (ix2 p k)) (fun k => x0 (ix2 p k)) (fun k q => x2 (ix2 q (hcol k))) (fun k q => x2 (ix2 q (xcol k)))
          (fun q => x3 (ix1 q)) k * x1 (ix2 p k))
          (fun k => x0 (ix2 p k)) (fun k q => x4 (ix2 q (hcol k))) (fun k q => x4 (ix2 q (xcol k)))
          (fun q => x5 (ix1 q)) q := by
  rw [val_main_v14_apply, val_main_v11_apply, val_main_v13_apply, val_main_v12_apply, bias_idx13]
  simp only [lidx11, ridx11]
  unfold val_main_v10
  rw [Ideal.addf_def, joined_gate]
  simp only [gated_apply]

/-- THE REFERENCE'S RESULT is the cell, index by index. -/
theorem result_eq : val_main_v17 (F := Ideal) x0 x1 x2 x3 x4 x5 = G x0 x1 x2 x3 x4 x5 := by
  funext i
  obtain ⟨p, q, rfl⟩ : ∃ (p : Fin 65536) (q : Fin 512), i = ix2 p q := ⟨i 0, i 1, eq_ix2 i⟩
  rw [val_main_v17_apply, val_main_v16_apply, val_main_v15_apply, newgate_apply, gated_apply, forget_apply,
    Ideal.addf_def, Ideal.subf_def, Ideal.mulf_def]
  rfl

end Cert.ReferenceIdeal.RefValue

end
-- ==== Proof.lean ====
/-
  A minimal gated unit cell on 65536 rows: a kernel that streams 1024-row blocks and multiplies by pre-split weight
  pieces, against a reference that joins each row's hidden part and input part and contracts the joined row whole.

  Per row, with hidden part h (512 entries), input part x (256 entries), weight matrices W_f, W_n (512 x 768) and
  biases b_f, b_n:
      fg = (W_f [h; x] + b_f + 1) * (1/2),   fh = fg * h,   ng = W_n [fh; x] + b_n,   result = (ng - fg * ng) + fh.
  On the extended reals, where a change of float format is the identity and every product into a zero accumulator is
  a plain sum, the kernel's per-piece products h·A + x·B (A, B the first 512 and the last 256 columns of the weight
  matrix, transposed) are the reference's one contraction over 768 columns split at column 512. Only commutativity
  and associativity of addition are used, so the finiteness precondition is never opened. The ideal pass rewrote
  nothing, so the idealization claim has no conjunct.

  The three frames are the generated ones (the reference's is its generated run with the result dropped); the kernel's
  result array is read off its generated blockwise run, the reference's off its generated run and stage lemmas.
-/
import proofs.«168205_j25469156065829_1_alg».proof.Defs
import proofs.«168205_j25469156065829_1_alg».proof.Proof.Gen.Kernel
import proofs.«168205_j25469156065829_1_alg».proof.Proof.Gen.Kernel.Frame
import proofs.«168205_j25469156065829_1_alg».proof.Proof.Gen.KernelIdeal
import proofs.«168205_j25469156065829_1_alg».proof.Proof.Gen.KernelIdeal.Frame
import proofs.«168205_j25469156065829_1_alg».proof.Proof.Gen.KernelIdeal.Value
import proofs.«168205_j25469156065829_1_alg».proof.Proof.Gen.ReferenceIdeal
import proofs.«168205_j25469156065829_1_alg».proof.Proof.Gen.ReferenceIdeal.Run
import proofs.«168205_j25469156065829_1_alg».proof.Proof.Gen.ReferenceIdeal.Read
import proofs.«168205_j25469156065829_1_alg».proof.Proof.Gen.Pre_finite_inputs
import proofs.«168205_j25469156065829_1_alg».proof.Proof.KernelValue
import proofs.«168205_j25469156065829_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array at the cell function of the six arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq]
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
